-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S256x2048 : Shape := ⟨2, ![256, 2048]⟩
abbrev S8x32x64x32 : Shape := ⟨4, ![8, 32, 64, 32]⟩
abbrev S8x32x64 : Shape := ⟨3, ![8, 32, 64]⟩
abbrev S8x32x64x1 : Shape := ⟨4, ![8, 32, 64, 1]⟩
abbrev S8x64x1 : Shape := ⟨3, ![8, 64, 1]⟩
abbrev S8x1x64x1 : Shape := ⟨4, ![8, 1, 64, 1]⟩
abbrev S16384x2048 : Shape := ⟨2, ![16384, 2048]⟩
abbrev S1x2048 : Shape := ⟨2, ![1, 2048]⟩
abbrev S512x2048 : Shape := ⟨2, ![512, 2048]⟩
abbrev S512x64x32 : Shape := ⟨3, ![512, 64, 32]⟩
abbrev S512x64 : Shape := ⟨2, ![512, 64]⟩
abbrev S512x64x1 : Shape := ⟨3, ![512, 64, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  shapeCasts_S256x2048_S8x32x64x32 : S256x2048.ShapeCasts S8x32x64x32
  reduces_S8x32x64x32_S8x32x64 : S8x32x64x32.Reduces [3] S8x32x64
  shapeCasts_S8x32x64_S8x32x64x1 : S8x32x64.ShapeCasts S8x32x64x1
  reduces_S8x32x64x1_S8x64x1 : S8x32x64x1.Reduces [1] S8x64x1
  shapeCasts_S8x64x1_S8x1x64x1 : S8x64x1.ShapeCasts S8x1x64x1
  broadcasts_S8x1x64x1_S8x32x64x32 : S8x1x64x1.Broadcasts S8x32x64x32
  shapeCasts_S8x32x64x32_S256x2048 : S8x32x64x32.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x2048_S512x64x32 : S512x2048.ShapeCasts S512x64x32
  reduces_S512x64x32_S512x64 : S512x64x32.Reduces [2] S512x64
  shapeCasts_S512x64_S512x64x1 : S512x64.ShapeCasts S512x64x1
  broadcasts_S512x64x1_S512x64x32 : S512x64x1.Broadcasts S512x64x32
  shapeCasts_S512x64x32_S512x2048 : S512x64x32.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S4x4096x1x64x32 : Shape := ⟨5, ![4, 4096, 1, 64, 32]⟩
abbrev S_ : Shape := ⟨0, ![]⟩
abbrev S4x4096x64 : Shape := ⟨3, ![4, 4096, 64]⟩
abbrev S4x4096x1x64x1 : Shape := ⟨5, ![4, 4096, 1, 64, 1]⟩
abbrev S64x32x64x32 : Shape := ⟨4, ![64, 32, 64, 32]⟩
abbrev S64x64 : Shape := ⟨2, ![64, 64]⟩
abbrev S64x1x64x1 : Shape := ⟨4, ![64, 1, 64, 1]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S4x4096x1x64x32, .f32⟩
  | .hbm, ⟨4, _⟩ => ⟨S4x4096x1x64x32, .f32⟩
  | .hbm, ⟨5, _⟩ => ⟨S_, .f32⟩
  | .hbm, ⟨6, _⟩ => ⟨S4x4096x64, .f32⟩
  | .hbm, ⟨7, _⟩ => ⟨S4x4096x1x64x1, .f32⟩
  | .hbm, ⟨8, _⟩ => ⟨S_, .f32⟩
  | .hbm, ⟨9, _⟩ => ⟨S4x4096x1x64x1, .f32⟩
  | .hbm, ⟨10, _⟩ => ⟨S4x4096x1x64x1, .i1⟩
  | .hbm, ⟨11, _⟩ => ⟨S_, .f32⟩
  | .hbm, ⟨12, _⟩ => ⟨S4x4096x1x64x1, .f32⟩
  | .hbm, ⟨13, _⟩ => ⟨S4x4096x1x64x1, .f32⟩
  | .hbm, ⟨14, _⟩ => ⟨S_, .f32⟩
  | .hbm, ⟨15, _⟩ => ⟨S4x4096x1x64x1, .f32⟩
  | .hbm, ⟨16, _⟩ => ⟨S4x4096x1x64x1, .f32⟩
  | .hbm, ⟨17, _⟩ => ⟨S4x4096x1x64x32, .f32⟩
  | .hbm, ⟨18, _⟩ => ⟨S4x4096x1x64x32, .f32⟩
  | .hbm, ⟨19, _⟩ => ⟨S4x4096x1x64x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x1x64x32, .f32⟩
  | .hbm, ⟨24, _⟩ => ⟨S4x4096x1x64x32, .f32⟩
  | .hbm, ⟨25, _⟩ => ⟨S_, .f32⟩
  | .hbm, ⟨26, _⟩ => ⟨S4x4096x1x64x32, .f32⟩
  | .hbm, ⟨27, _⟩ => ⟨S4x4096x1x64x32, .f32⟩
  | .hbm, ⟨28, _⟩ => ⟨S4x4096x1x64x32, .f32⟩
  | .hbm, ⟨29, _⟩ => ⟨S4x4096x1x64x32, .f32⟩
  | .hbm, ⟨30, _⟩ => ⟨S4x4096x2048, .f32⟩
  | .hbm, ⟨31, _⟩ => ⟨S2048x2048, .f32⟩
  | .hbm, ⟨32, _⟩ => ⟨S64x32x64x32, .f32⟩
  | .hbm, ⟨33, _⟩ => ⟨S64x32x64x32, .f32⟩
  | .hbm, ⟨34, _⟩ => ⟨S_, .f32⟩
  | .hbm, ⟨35, _⟩ => ⟨S64x64, .f32⟩
  | .hbm, ⟨36, _⟩ => ⟨S64x1x64x1, .f32⟩
  | .hbm, ⟨37, _⟩ => ⟨S_, .f32⟩
  | .hbm, ⟨38, _⟩ => ⟨S64x1x64x1, .f32⟩
  | .hbm, ⟨39, _⟩ => ⟨S64x1x64x1, .i1⟩
  | .hbm, ⟨40, _⟩ => ⟨S_, .f32⟩
  | .hbm, ⟨41, _⟩ => ⟨S64x1x64x1, .f32⟩
  | .hbm, ⟨42, _⟩ => ⟨S64x1x64x1, .f32⟩
  | .hbm, ⟨43, _⟩ => ⟨S_, .f32⟩
  | .hbm, ⟨44, _⟩ => ⟨S64x1x64x1, .f32⟩
  | .hbm, ⟨45, _⟩ => ⟨S64x1x64x1, .f32⟩
  | .hbm, ⟨46, _⟩ => ⟨S64x32x64x32, .f32⟩
  | .hbm, ⟨47, _⟩ => ⟨S64x32x64x32, .f32⟩
  | .hbm, ⟨48, _⟩ => ⟨S64x32x64x32, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64x32x64x32, .f32⟩
  | .hbm, ⟨53, _⟩ => ⟨S64x32x64x32, .f32⟩
  | .hbm, ⟨54, _⟩ => ⟨S_, .f32⟩
  | .hbm, ⟨55, _⟩ => ⟨S64x32x64x32, .f32⟩
  | .hbm, ⟨56, _⟩ => ⟨S64x32x64x32, .f32⟩
  | .hbm, ⟨57, _⟩ => ⟨S64x32x64x32, .f32⟩
  | .hbm, ⟨58, _⟩ => ⟨S64x32x64x32, .f32⟩
  | .hbm, ⟨59, _⟩ => ⟨S2048x2048, .f32⟩
  | .hbm, ⟨60, _⟩ => ⟨S4x4096x2048, .f32⟩
  | .hbm, ⟨61, _⟩ => ⟨S1x1x2048, .f32⟩
  | .hbm, ⟨62, _⟩ => ⟨S4x4096x2048, .f32⟩
  | .hbm, ⟨63, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  shapeCasts_S4x4096x2048_S4x4096x1x64x32 : S4x4096x2048.ShapeCasts S4x4096x1x64x32
  reducesTo_S4x4096x1x64x32_S4x4096x64_d2_4 : S4x4096x1x64x32.ReducesTo [2, 4] S4x4096x64
  h_S_ : 0 < S_.numel
  bcast_S4x4096x64_S4x4096x1x64x1_0_1_3 : S4x4096x64.BroadcastsInDim S4x4096x1x64x1 (![0, 1, 3] : Fin 3 → Fin S4x4096x1x64x1.rank)
  bcast_S_S4x4096x1x64x1 : S_.BroadcastsInDim S4x4096x1x64x1 (![] : Fin 0 → Fin S4x4096x1x64x1.rank)
  bcast_S4x4096x1x64x1_S4x4096x1x64x32_0_1_2_3_4 : S4x4096x1x64x1.BroadcastsInDim S4x4096x1x64x32 (![0, 1, 2, 3, 4] : Fin 5 → Fin S4x4096x1x64x32.rank)
  bcast_S_S4x4096x1x64x32 : S_.BroadcastsInDim S4x4096x1x64x32 (![] : Fin 0 → Fin S4x4096x1x64x32.rank)
  shapeCasts_S4x4096x1x64x32_S4x4096x2048 : S4x4096x1x64x32.ShapeCasts S4x4096x2048
  transposes_S2048x2048_S2048x2048_1_0 : S2048x2048.Transposes [1, 0] S2048x2048
  shapeCasts_S2048x2048_S64x32x64x32 : S2048x2048.ShapeCasts S64x32x64x32
  reducesTo_S64x32x64x32_S64x64_d1_3 : S64x32x64x32.ReducesTo [1, 3] S64x64
  bcast_S64x64_S64x1x64x1_0_2 : S64x64.BroadcastsInDim S64x1x64x1 (![0, 2] : Fin 2 → Fin S64x1x64x1.rank)
  bcast_S_S64x1x64x1 : S_.BroadcastsInDim S64x1x64x1 (![] : Fin 0 → Fin S64x1x64x1.rank)
  bcast_S64x1x64x1_S64x32x64x32_0_1_2_3 : S64x1x64x1.BroadcastsInDim S64x32x64x32 (![0, 1, 2, 3] : Fin 4 → Fin S64x32x64x32.rank)
  bcast_S_S64x32x64x32 : S_.BroadcastsInDim S64x32x64x32 (![] : Fin 0 → Fin S64x32x64x32.rank)
  shapeCasts_S64x32x64x32_S2048x2048 : S64x32x64x32.ShapeCasts S2048x2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_0_01_1_n_n_wf : DotDims.WF S4x4096x2048 S2048x2048 S4x4096x2048 [2] [0] [0, 1] [1] [] []

variable [Facts₀]

def dot_S4x4096x2048_S2048x2048_S4x4096x2048_2_0_01_1_n_n : DotDims S4x4096x2048 S2048x2048 S4x4096x2048 where
  lhsContracting := [2]
  rhsContracting := [0]
  lhsNonContracting := [0, 1]
  rhsNonContracting := [1]
  lhsBatch := []
  rhsBatch := []
  wf := dot_S4x4096x2048_S2048x2048_S4x4096x2048_2_0_01_1_n_n_wf

class Facts : Prop extends Facts₀ where

variable [Facts]
-- ==== Proof.Spec.lean ====
/-
  What both programs compute, written once over coordinates.

  A row of the activations is cut into 64 groups of 32 consecutive entries; each group is scaled by its largest
  magnitude divided by 127 (by 1 when the group is all zero), every entry is divided by its group's scale, rounded to
  the nearest integer (ties to even), clamped to [-127, 127] and multiplied by the scale again.  The weight matrix is
  treated the same way with 32 x 32 tiles in place of the 1 x 32 groups.  The result is the product of the quantised
  activations with the transposed quantised weights, plus the bias.  All of it is read at the exact values: a float is
  an extended real and every operation is the textbook one.
-/
import Idealize.ShloMosaic.PureOps.Ideal
import Idealize.ShloMosaic.Lib.ValueIdx

noncomputable section

namespace Cert.BlockQuant

open Idealize.ShloMosaic Idealize.ShloMosaic.ValueIdx

/-- The five float constants of the two programs, as the patterns both print. -/
abbrev negInf : EReal := Ideal.ofBits .f32 0xFF800000#32
abbrev fzero : EReal := Ideal.ofBits .f32 0x00000000#32
abbrev fone : EReal := Ideal.ofBits .f32 0x3F800000#32
abbrev qmax : EReal := Ideal.ofBits .f32 0x42FE0000#32
abbrev qmin : EReal := Ideal.ofBits .f32 0xC2FE0000#32

/-- Magnitude. -/
def mag (a : EReal) : EReal := max a (-a)

/-- The scale of a group from its largest magnitude: a 127th of it when it is positive, otherwise one. -/
def scaleOf (mx : EReal) : EReal := Scalar.select (Ideal.cmp .ogt mx fzero) (Ideal.div mx qmax) fone

/-- One entry quantised at scale `s` and scaled back: divide, round half to even, clamp to [-127, 127], multiply. -/
def fq (a s : EReal) : EReal := min qmax (max qmin (Ideal.liftRound Ideal.roundHalfEven (Ideal.div a s))) * s

/-- Entry `s` of group `g` of a 2048-long axis. -/
abbrev col (g : Fin 64) (s : Fin 32) : Fin 2048 := ⟨32 * g.val + s.val, by omega⟩
/-- The group an entry of a 2048-long axis lies in. -/
abbrev grp (d : Fin 2048) : Fin 64 := ⟨d.val / 32, by omega⟩

/-- The largest magnitude in group `g` of row `i`. -/
def rowMax (X : Fin 16384 → Fin 2048 → EReal) (i : Fin 16384) (g : Fin 64) : EReal :=
  (Finset.univ : Finset (Fin 32)).fold max negInf fun s => mag (X i (col g s))

/-- The largest magnitude in the 32 x 32 tile `(a, b)`: the largest over its rows of each row's largest. -/
def tileMax (W : Fin 2048 → Fin 2048 → EReal) (a b : Fin 64) : EReal :=
  (Finset.univ : Finset (Fin 32)).fold max negInf fun r =>
    (Finset.univ : Finset (Fin 32)).fold max negInf fun s => mag (W (col a r) (col b s))

/-- The quantised activations. -/
def qx (X : Fin 16384 → Fin 2048 → EReal) (i : Fin 16384) (d : Fin 2048) : EReal :=
  fq (X i d) (scaleOf (rowMax X i (grp d)))

/-- The quantised weights, in the weight's own layout (output feature, input feature). -/
def qw (W : Fin 2048 → Fin 2048 → EReal) (e d : Fin 2048) : EReal :=
  fq (W e d) (scaleOf (tileMax W (grp e) (grp d)))

/-- The result at row `i`, output feature `e`. -/
def out (X : Fin 16384 → Fin 2048 → EReal) (W : Fin 2048 → Fin 2048 → EReal) (B : Fin 2048 → EReal)
    (i : Fin 16384) (e : Fin 2048) : EReal :=
  (∑ d : Fin 2048, qx X i d * qw W e d) + B e

/-- Row `s` of batch `b` among the 16384 rows. -/
abbrev row (b : Fin 4) (s : Fin 4096) : Fin 16384 := ⟨b.val * 4096 + s.val, by omega⟩

/-- The activations as 16384 rows. -/
def rowsOf (x : (⟨3, ![4, 4096, 2048]⟩ : Shape).Idx → EReal) : Fin 16384 → Fin 2048 → EReal :=
  fun i d => x (ix3 ⟨i.val / 4096, by omega⟩ ⟨i.val % 4096, Nat.mod_lt _ (by decide)⟩ d)

/-- A matrix by its two coordinates. -/
def matOf (w : (⟨2, ![2048, 2048]⟩ : Shape).Idx → EReal) : Fin 2048 → Fin 2048 → EReal := fun e d => w (ix2 e d)

/-- A vector by its coordinate. -/
def vecOf (b : (⟨1, ![2048]⟩ : Shape).Idx → EReal) : Fin 2048 → EReal := fun e => b (ix1 e)

/-- The whole result as one function of the three argument arrays. -/
def result (x : (⟨3, ![4, 4096, 2048]⟩ : Shape).Idx → EReal) (w : (⟨2, ![2048, 2048]⟩ : Shape).Idx → EReal)
    (b : (⟨1, ![2048]⟩ : Shape).Idx → EReal) : (⟨3, ![4, 4096, 2048]⟩ : Shape).Idx → EReal :=
  fun j => out (rowsOf x) (matOf w) (vecOf b) (row (j 0) (j 1)) (j 2)

end Cert.BlockQuant

end
-- ==== Proof.K0Pay.lean ====
import proofs.«104684_j16587163697535_1_alg».proof.Proof.Gen.KernelIdeal.Skeleton
import proofs.«104684_j16587163697535_1_alg».proof.Proof.Spec
import Idealize.ShloMosaic.PureOps.Ideal.Laws
import Idealize.ShloMosaic.Lib.Pipeline.Value
import Idealize.ShloMosaic.Lib.ValueIdx

noncomputable section

namespace Cert.KernelIdeal.WeightRegion

open Idealize.ShloMosaic Idealize.ShloMosaic.TcCoe Idealize.SL.Sem Idealize.ShloMosaic.ValueIdx
open Cert.KernelIdeal Cert.KernelIdeal.Gen Cert.BlockQuant

/-- The largest magnitude in tile `(a, b)` of a 256-row block. -/
def tileMaxBlk (v : Fin 256 → Fin 2048 → EReal) (a : Fin 8) (b : Fin 64) : EReal :=
  (Finset.univ : Finset (Fin 32)).fold max negInf fun r =>
    (Finset.univ : Finset (Fin 32)).fold max negInf fun s => mag (v ⟨32 * a.val + r.val, by omega⟩ (col b s))

/-! ## The layout operations read at an index

The 256 x 2048 block and its view as 8 x 32 x 64 x 32 tiles share row-major positions: row 32a + r, column 32b + s
of the block is entry (a, r, b, s) of the view. The unit axes the two maxima leave behind move nothing. -/

section Layout

variable {α : Type}

/-- The block viewed as 8 x 32 x 64 x 32: entry (a, r, b, s) is the block's entry in row 32a + r, column 32b + s. -/
theorem tiles_of_block (x : S256x2048.Idx → α) (h : S256x2048.ShapeCasts S8x32x64x32)
    (a : Fin 8) (r : Fin 32) (b : Fin 64) (s : Fin 32) (p : Fin 256) (q : Fin 2048)
    (hp : p.val = 32 * a.val + r.val) (hq : q.val = 32 * b.val + s.val) :
    shapeCast S8x32x64x32 x h (ix4 a r b s) = x (ix2 p q) :=
  shapeCast_apply x h _ _ (by
    rw [Shape.rowMajor_val_two, Shape.rowMajor_val_four]
    show p.val * 2048 + q.val = ((a.val * 32 + r.val) * 64 + b.val) * 32 + s.val
    omega)

/-- And back: entry (p, q) of the block is entry (a, r, b, s) of the tiled view when p = 32a + r and q = 32b + s. -/
theorem block_of_tiles (y : S8x32x64x32.Idx → α) (h : S8x32x64x32.ShapeCasts S256x2048)
    (a : Fin 8) (r : Fin 32) (b : Fin 64) (s : Fin 32) (p : Fin 256) (q : Fin 2048)
    (hp : p.val = 32 * a.val + r.val) (hq : q.val = 32 * b.val + s.val) :
    shapeCast S256x2048 y h (ix2 p q) = y (ix4 a r b s) :=
  shapeCast_apply y h _ _ (by
    rw [Shape.rowMajor_val_two, Shape.rowMajor_val_four]
    show ((a.val * 32 + r.val) * 64 + b.val) * 32 + s.val = p.val * 2048 + q.val
    omega)

/-- A trailing unit axis added to an 8 x 32 x 64 array. -/
theorem unit_last (x : S8x32x64.Idx → α) (h : S8x32x64.ShapeCasts S8x32x64x1)
    (a : Fin 8) (r : Fin 32) (b : Fin 64) (u : Fin 1) :
    shapeCast S8x32x64x1 x h (ix4 a r b u) = x (ix3 a r b) :=
  shapeCast_apply x h _ _ (by
    have hu : u.val = 0 := by omega
    rw [Shape.rowMajor_val_three, Shape.rowMajor_val_four]
    show (a.val * 32 + r.val) * 64 + b.val = ((a.val * 32 + r.val) * 64 + b.val) * 1 + u.val
    omega)

/-- A unit axis put back in second place of an 8 x 64 x 1 array. -/
theorem unit_second (x : S8x64x1.Idx → α) (h : S8x64x1.ShapeCasts S8x1x64x1)
    (a : Fin 8) (u : Fin 1) (b : Fin 64) (w : Fin 1) :
    shapeCast S8x1x64x1 x h (ix4 a u b w) = x (ix3 a b w) :=
  shapeCast_apply x h _ _ (by
    have hu : u.val = 0 := by omega
    rw [Shape.rowMajor_val_three, Shape.rowMajor_val_four]
    show (a.val * 64 + b.val) * 1 + w.val = ((a.val * 1 + u.val) * 64 + b.val) * 1 + w.val
    omega)

/-- One value per tile spread over the tile's 32 x 32 entries. -/
theorem spread_tile (x : S8x1x64x1.Idx → α) (h : S8x1x64x1.Broadcasts S8x32x64x32)
    (a : Fin 8) (r : Fin 32) (b : Fin 64) (s : Fin 32) :
    broadcastTo S8x32x64x32 x h (ix4 a r b s) = x (ix4 a (0 : Fin 1) b (0 : Fin 1)) :=
  broadcastTo_apply x h _ _ fun c => match c with
    | ⟨0, _⟩ => rfl | ⟨1, _⟩ => rfl | ⟨2, _⟩ => rfl | ⟨3, _⟩ => rfl

end Layout

/-! ## The two maxima read at an index -/

/-- The maximum along the last axis: at (a, r, b) the largest of the 32 entries (a, r, b, ·), from minus infinity. -/
theorem max_last (src : FVec Ideal S8x32x64x32 .f32) (h : S8x32x64x32.Reduces [3] S8x32x64)
    (hφ : FKind.Formats .f32) (hacc : (0xFF800000#32 : BitVec 32) = FKind.maximumf.neutral .f32 hφ)
    (a : Fin 8) (r : Fin 32) (b : Fin 64) :
    multiReduction .maximumf [3] S8x32x64 src 0xFF800000#32 h hφ hacc (ix3 a r b)
      = (Finset.univ : Finset (Fin 32)).fold max negInf fun s => src (ix4 a r b s) := by
  refine (Ideal.multiReduction_maximumf_single src _ h hφ hacc (ix3 a r b)).trans ?_
  show (Finset.univ : Finset (Fin 32)).fold max negInf (fun s => src (h.lift (ix3 a r b) s)) = _
  refine Finset.fold_congr fun s _ => congrArg src (funext fun c => Fin.ext ?_)
  match c with
  | ⟨0, _⟩ => rfl
  | ⟨1, _⟩ => rfl
  | ⟨2, _⟩ => rfl
  | ⟨3, _⟩ => rfl

/-- The maximum along the second axis: at (a, b, u) the largest of the 32 entries (a, ·, b, u), from minus infinity. -/
theorem max_second (src : FVec Ideal S8x32x64x1 .f32) (h : S8x32x64x1.Reduces [1] S8x64x1)
    (hφ : FKind.Formats .f32) (hacc : (0xFF800000#32 : BitVec 32) = FKind.maximumf.neutral .f32 hφ)
    (a : Fin 8) (b : Fin 64) (u : Fin 1) :
    multiReduction .maximumf [1] S8x64x1 src 0xFF800000#32 h hφ hacc (ix3 a b u)
      = (Finset.univ : Finset (Fin 32)).fold max negInf fun r => src (ix4 a r b u) := by
  refine (Ideal.multiReduction_maximumf_single src _ h hφ hacc (ix3 a b u)).trans ?_
  show (Finset.univ : Finset (Fin 32)).fold max negInf (fun r => src (h.lift (ix3 a b u) r)) = _
  refine Finset.fold_congr fun r _ => congrArg src (funext fun c => Fin.ext ?_)
  match c with
  | ⟨0, _⟩ => rfl
  | ⟨1, _⟩ => rfl
  | ⟨2, _⟩ => rfl
  | ⟨3, _⟩ => rfl

/-! ## Rounding, magnitude and constants at an index -/

/-- Rounding to even, entry by entry. -/
theorem roundeven_at {s : Shape} (x : FVec Ideal s .f32) (i : s.Idx) :
    roundeven x i = Ideal.liftRound Ideal.roundHalfEven (x i) := rfl

/-- The absolute value, entry by entry, is the magnitude. -/
theorem absf_at {s : Shape} (x : FVec Ideal s .f32) (i : s.Idx) : absf x i = mag (x i) := rfl

/-- A float constant given by its pattern is the extended real the pattern denotes. -/
theorem const_at (w : BitVec 32) : (Scalar.ofBits .f32 w : Ideal .f32) = Ideal.ofBits .f32 w := rfl

/-! ## The kernel's scale, tile by tile -/

/-- The two maxima of the kernel, one after the other, with the unit axes they keep: one value per tile. -/
def tileTop (v0 : Vec Ideal S256x2048 .f32) : FVec Ideal S8x1x64x1 .f32 :=
  shapeCast S8x1x64x1
    (multiReduction .maximumf [1] S8x64x1
      (shapeCast S8x32x64x1
        (multiReduction .maximumf [3] S8x32x64 (absf (shapeCast S8x32x64x32 v0 shapeCasts_S256x2048_S8x32x64x32))
          0xFF800000#32 reduces_S8x32x64x32_S8x32x64 (.inl rfl) rfl)
        shapeCasts_S8x32x64_S8x32x64x1)
      0xFF800000#32 reduces_S8x32x64x1_S8x64x1 (.inl rfl) rfl)
    shapeCasts_S8x64x1_S8x1x64x1

/-- The scale the kernel takes from those maxima: a 127th where the maximum is positive, one elsewhere. -/
def tileScale (v0 : Vec Ideal S256x2048 .f32) : FVec Ideal S8x1x64x1 .f32 :=
  select (cmpf .ogt (tileTop v0) (broadcast S8x1x64x1 (Scalar.ofBits .f32 0x00000000#32)))
    (divf (tileTop v0) (broadcast S8x1x64x1 (Scalar.ofBits .f32 0x42FE0000#32)))
    (broadcast S8x1x64x1 (Scalar.ofBits .f32 0x3F800000#32))

/-- The stored value is the quantise-and-rescale chain over the tiled view with that scale spread over each tile. -/
theorem pay_eq_chain (v0 : Vec Ideal S256x2048 .f32) :
    k0_pay1 (F := Ideal) v0
      = truncf .bf16
          (shapeCast S256x2048
            (mulf
              (minimumf (broadcast S8x32x64x32 (Scalar.ofBits .f32 0x42FE0000#32))
                (maximumf (broadcast S8x32x64x32 (Scalar.ofBits .f32 0xC2FE0000#32))
                  (roundeven
                    (divf (shapeCast S8x32x64x32 v0 shapeCasts_S256x2048_S8x32x64x32)
                      (broadcastTo S8x32x64x32 (tileScale v0) broadcasts_S8x1x64x1_S8x32x64x32)))))
              (broadcastTo S8x32x64x32 (tileScale v0) broadcasts_S8x1x64x1_S8x32x64x32))
            shapeCasts_S8x32x64x32_S256x2048)
          bitsLt_bf16_f32 := rfl

/-- The value the two maxima leave for tile (a, b) is the tile's largest magnitude: the inner maximum runs over a
    tile row's 32 entries, the outer one over the tile's 32 rows. -/
theorem tileTop_at (v0 : Vec Ideal S256x2048 .f32) (a : Fin 8) (b : Fin 64) :
    tileTop v0 (ix4 a (0 : Fin 1) b (0 : Fin 1)) = tileMaxBlk (fun p' q' => v0 (ix2 p' q')) a b := by
  unfold tileTop tileMaxBlk
  refine (unit_second _ _ a 0 b 0).trans ?_
  refine (max_second _ _ _ _ a b 0).trans ?_
  refine Finset.fold_congr fun r _ => ?_
  refine (unit_last _ _ a r b 0).trans ?_
  refine (max_last _ _ _ _ a r b).trans ?_
  refine Finset.fold_congr fun s _ => ?_
  rw [absf_at]
  exact congrArg mag (tiles_of_block v0 _ a r b s _ _ rfl rfl)

/-- So the kernel's scale for tile (a, b) is the specification's scale of that tile's largest magnitude. -/
theorem tileScale_at (v0 : Vec Ideal S256x2048 .f32) (a : Fin 8) (b : Fin 64) :
    tileScale v0 (ix4 a (0 : Fin 1) b (0 : Fin 1)) = scaleOf (tileMaxBlk (fun p' q' => v0 (ix2 p' q')) a b) := by
  unfold tileScale scaleOf
  rw [select_apply, cmpf_apply, divf_apply, broadcast_apply, broadcast_apply, broadcast_apply, tileTop_at,
    Ideal.cmpf_def, const_at, const_at, const_at]

/-! ## The stored value at an entry -/

theorem pay0_at (v0 : Vec Ideal S256x2048 .f32) (p : Fin 256) (q : Fin 2048) :
    k0_pay1 (F := Ideal) v0 (ix2 p q)
      = fq (v0 (ix2 p q)) (scaleOf (tileMaxBlk (fun p' q' => v0 (ix2 p' q')) ⟨p.val / 32, by omega⟩ (grp q))) := by
  -- entry (p, q) lies in tile (p / 32, q / 32), at row p % 32 and column q % 32 of it
  have hp : p.val = 32 * (⟨p.val / 32, by omega⟩ : Fin 8).val + (⟨p.val % 32, by omega⟩ : Fin 32).val := by
    show p.val = 32 * (p.val / 32) + p.val % 32
    omega
  have hq : q.val = 32 * (grp q).val + (⟨q.val % 32, by omega⟩ : Fin 32).val := by
    show q.val = 32 * (q.val / 32) + q.val % 32
    omega
  rw [pay_eq_chain, truncf_apply]
  refine (block_of_tiles _ _ ⟨p.val / 32, by omega⟩ ⟨p.val % 32, by omega⟩ (grp q) ⟨q.val % 32, by omega⟩ p q hp hq).trans ?_
  -- the pointwise chain at that entry: divide by the tile's scale, round, clamp, multiply back
  rw [mulf_apply, minimumf_apply, maximumf_apply, broadcast_apply, broadcast_apply, roundeven_at, divf_apply,
    spread_tile, tileScale_at, tiles_of_block v0 _ _ _ _ _ p q hp hq, const_at, const_at]
  rfl

end Cert.KernelIdeal.WeightRegion

end
-- ==== Proof.K0Arr.lean ====
import proofs.«104684_j16587163697535_1_alg».proof.Proof.Gen.KernelIdeal.Frame
import proofs.«104684_j16587163697535_1_alg».proof.Proof.K0Pay
import Idealize.ShloMosaic.PureOps.Ideal.Laws
import Idealize.ShloMosaic.Lib.Pipeline.Value
import Idealize.ShloMosaic.Lib.ValueIdx

/-!
  The weight-quantising region, from its eight row blocks to the whole array.

  Grid point t reads rows 256 t … 256 t + 255 of the weight matrix (all 2048 columns) and writes the same rows of the
  output.  A 32 x 32 tile never straddles two blocks, because 256 is a multiple of 32: the tile of block row p is tile
  (256 t + p) / 32 of the matrix, so the largest magnitude the block computes for an entry's tile is the matrix's own
  tile maximum, and the entry the block writes at (p, q) is the quantised weight at (256 t + p, q).  The eight blocks
  cover every row (row r lies in block r / 256), so the output array ends holding the quantised weights everywhere.
-/

noncomputable section

namespace Cert.KernelIdeal.WeightRegion

open Idealize.ShloMosaic Idealize.ShloMosaic.TcCoe Idealize.SL.Sem Idealize.ShloMosaic.ValueIdx
open Cert.KernelIdeal Cert.KernelIdeal.Gen Cert.BlockQuant

namespace RowBlocks

/-- A block that is rows 256 t … 256 t + 255 of a matrix has, for the tile of its row p, the matrix's tile maximum
    at the tile of row 256 t + p: both run over rows 256 t + 32 (p / 32) + r = 32 ((256 t + p) / 32) + r. -/
theorem tileMaxBlk_eq_tileMax (v : Fin 256 → Fin 2048 → EReal) (W : Fin 2048 → Fin 2048 → EReal) (t : Nat) (ht : t < 8)
    (hv : ∀ (p : Fin 256) (q : Fin 2048), v p q = W ⟨256 * t + p.val, by omega⟩ q)
    (p : Fin 256) (e : Fin 2048) (he : e.val = 256 * t + p.val) (b : Fin 64) :
    tileMaxBlk v ⟨p.val / 32, by omega⟩ b = tileMax W (grp e) b := by
  unfold tileMaxBlk tileMax
  refine Finset.fold_congr fun r _ => ?_
  refine Finset.fold_congr fun s _ => ?_
  rw [hv]
  congr 2
  apply Fin.ext
  have hr : r.val < 32 := r.isLt
  show 256 * t + (32 * (p.val / 32) + r.val) = 32 * (e.val / 32) + r.val
  omega

/-- What the body computes from such a block, at block entry j, is the quantised weight at the array entry i with
    row 256 t + (row of j) and the column of j. -/
theorem quantised_block_entry (v0 : Vec Ideal S256x2048 .f32) (w : S2048x2048.Idx → EReal) (t : Nat) (ht : t < 8)
    (hv : ∀ (p : Fin 256) (q : Fin 2048), v0 (ix2 p q) = w (ix2 ⟨256 * t + p.val, by omega⟩ q))
    (j : S256x2048.Idx) (i : S2048x2048.Idx) (hi0 : (i 0).val = 256 * t + (j 0).val) (hi1 : (i 1).val = (j 1).val) :
    k0_pay1 (F := Ideal) v0 j = qw (matOf w) (i 0) (i 1) := by
  obtain ⟨p, q, rfl⟩ : ∃ (p : Fin 256) (q : Fin 2048), j = ix2 p q := ⟨j 0, j 1, eq_ix2 j⟩
  have h1 : i 1 = q := Fin.ext hi1
  have h0 : i 0 = (⟨256 * t + p.val, by omega⟩ : Fin 2048) := Fin.ext hi0
  rw [pay0_at, h1, h0]
  unfold qw
  rw [tileMaxBlk_eq_tileMax (fun p' q' => v0 (ix2 p' q')) (matOf w) t ht (fun p' q' => hv p' q') p
    ⟨256 * t + p.val, by omega⟩ rfl (grp q), hv]
  rfl

/-- The body's one load and one store start at row 0, column 0 of the staging buffer. -/
theorem origin : (![0, 0] : Fin 2 → Nat) = fun _ => 0 := funext fun a => by fin_cases a <;> rfl

/-- Both windows sit at block row t, block column 0 at grid point t (decided over the eight points). -/
theorem block_row_col : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- There are eight grid points. -/
theorem point_lt (t : Fin cfg0.N) : t.val < 8 := by
  have h : cfg0.N = 8 := N_0
  have := t.isLt
  omega

variable (V : (c : Dev nD) → (b : Ref sig .tc) → Buf (Elt Ideal) ((c : Thread nD τ).loc b))

/-- The quantised weights as one array over the output's indices. -/
abbrev quantisedWeights (c : Dev nD) : S2048x2048.Idx → EReal := fun j => qw (matOf (V c main_arg1)) (j 0) (j 1)

/-- The input block at point t is rows 256 t … 256 t + 255 of the weight matrix. -/
theorem weight_block_entry (c : Dev nD) (t : Fin cfg0.N) (p : Fin 256) (q : Fin 2048) :
    (iblk0 (F := Ideal) V c 0 t : Vec Ideal S256x2048 .f32) (ix2 p q)
      = (V c main_arg1 : S2048x2048.Idx → EReal)
          (ix2 (⟨256 * t.val + p.val, by have := point_lt t; omega⟩ : Fin 2048) q) := by
  obtain ⟨e0, e1, -, -⟩ := block_row_col t
  unfold iblk0
  rw [View.read_apply]
  show V c main_arg1 (((cfg0.win 0).blk t).view.emb (ix2 p q)) = V c main_arg1 _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 2048 + 1 * q.val = q.val; rw [e1]; omega

/-- What point t writes back is block t of the quantised weights. -/
theorem written_block (c : Dev nD) (t : Fin cfg0.N) :
    (dat0 (F := Ideal) V c).flushed 1 t = ((cfg0.win 1).blk t).view.read (Elt Ideal) (quantisedWeights V c) := by
  show (cfg0.win 1).cut (grid0.coords t) ((dat0 (F := Ideal) V c).after 1 t) = _
  rw [after0_1]
  unfold out0_1
  rw [View.canon_unit_zero origin]
  simp only [View.ld_unit_zero (S := S256x2048) origin]
  obtain ⟨-, -, e2, e3⟩ := block_row_col t
  refine funext fun (j : S256x2048.Idx) => ?_
  refine quantised_block_entry (iblk0 (F := Ideal) V c 0 t) (V c main_arg1) t.val (point_lt t)
    (fun p q => weight_block_entry V c t p q) j (((cfg0.win 1).blk t).view.emb j) ?_ ?_
  · show win0_1.index t (0 : Fin 2) * 256 + 1 * (j 0).val = 256 * t.val + (j 0).val
    rw [e2]; omega
  · show win0_1.index t (1 : Fin 2) * 2048 + 1 * (j 1).val = (j 1).val
    rw [e3]; omega

/-- An entry of the output array is in point t's block iff each coordinate is in the block's range on its axis. -/
theorem mem_output_block (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0).slice (win0_1.rect t)).set ↔ _
  rw [View.set_slice_whole, Rect.mem_set_unit]
  exact Iff.rfl

/-- Row r of the array lies in the block of point r / 256, and every block spans all 2048 columns. -/
theorem rows_covered (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  have hN : cfg0.N = 8 := N_0
  obtain ⟨t, ht⟩ : ∃ t : Fin cfg0.N, t.val = (i 0).val / 256 := ⟨⟨(i 0).val / 256, by omega⟩, rfl⟩
  obtain ⟨-, -, e2, e3⟩ := block_row_col t
  refine ⟨t, flush0_1 t, ?_⟩
  rw [mem_output_block]
  intro a
  match a with
  | ⟨0, _⟩ =>
    show win0_1.index t (0 : Fin 2) * 256 ≤ (i 0).val ∧ (i 0).val < win0_1.index t (0 : Fin 2) * 256 + 256
    rw [e2]; omega
  | ⟨1, _⟩ =>
    show win0_1.index t (1 : Fin 2) * 2048 ≤ (i 1).val ∧ (i 1).val < win0_1.index t (1 : Fin 2) * 2048 + 2048
    rw [e3]; omega

end RowBlocks

/-- After the region the output array holds the quantised weights: every point writes its block of them, and the
    blocks cover the array. -/
theorem arr0 (V : (c : Dev nD) → (b : Ref sig .tc) → Buf (Elt Ideal) ((c : Thread nD τ).loc b)) (c : Dev nD) :
    (dat0 (F := Ideal) V c).arrAt 1 cfg0.N = fun j => qw (matOf (V c main_arg1)) (j 0) (j 1) :=
  (dat0 (F := Ideal) V c).arrAt_eq_of_cover 1 (RowBlocks.quantisedWeights V c)
    (fun t _ => RowBlocks.written_block V c t) RowBlocks.rows_covered

end Cert.KernelIdeal.WeightRegion

end
-- ==== Proof.K1Pay.lean ====
import proofs.«104684_j16587163697535_1_alg».proof.Proof.Gen.KernelIdeal.Skeleton
import proofs.«104684_j16587163697535_1_alg».proof.Proof.Spec
import Idealize.ShloMosaic.PureOps.Ideal.Laws
import Idealize.ShloMosaic.Lib.Pipeline.Value
import Idealize.ShloMosaic.Lib.ValueIdx

noncomputable section

namespace Cert.KernelIdeal.MatmulRegion

open Idealize.ShloMosaic Idealize.ShloMosaic.TcCoe Idealize.SL.Sem Idealize.ShloMosaic.ValueIdx
open Cert.KernelIdeal Cert.KernelIdeal.Gen Cert.BlockQuant

/-- The largest magnitude in group `g` of row `p` of a 512-row block. -/
def rowMaxBlk (v : Fin 512 → Fin 2048 → EReal) (p : Fin 512) (g : Fin 64) : EReal :=
  (Finset.univ : Finset (Fin 32)).fold max negInf fun s => mag (v p (col g s))

/-! ## The product's operand indices

The product contracts the second axis of both operands and keeps the first axis of each: at output `(r, c)` and
contraction coordinate `k` the left operand is read at `(r, k)` and the right one at `(c, k)`. One fact per operand axis. -/

theorem lhs_k1_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_k1_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_k1_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_k1_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator, read at row `p`, column `e`: both operands are contracted along their second axis. -/
theorem matmul_at (a : FVec Ideal S512x2048 .bf16) (b : FVec Ideal S2048x2048 .bf16) (p : Fin 512) (e : Fin 2048) :
    matmul dot_S512x2048_S2048x2048_S512x2048_1_1_0_0_n_n none a b (constant (F := Ideal) S512x2048 .f32 0x00000000#32) (ix2 p e)
      = ∑ d : Fin 2048, a (ix2 p d) * b (ix2 e d) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p e) ((ValueIdx.contrEquiv1 dot_S512x2048_S2048x2048_S512x2048_1_1_0_0_n_n 2048 rfl rfl).symm k) = ix2 p k := funext fun c => Fin.ext (by
    match c with
    | ⟨0, _⟩ => exact lhs_k1_0 _ _
    | ⟨1, _⟩ => exact (lhs_k1_1 _ _).trans hk)
  have er : dot_S512x2048_S2048x2048_S512x2048_1_1_0_0_n_n.rhsIdx (ix2 p e) ((ValueIdx.contrEquiv1 dot_S512x2048_S2048x2048_S512x2048_1_1_0_0_n_n 2048 rfl rfl).symm k) = ix2 e k := funext fun c => Fin.ext (by
    match c with
    | ⟨0, _⟩ => exact rhs_k1_0 _ _
    | ⟨1, _⟩ => exact (rhs_k1_1 _ _).trans hk)
  rw [el, er]

/-! ## The layout operations at an index

A row of 2048 entries is 64 groups of 32: column `d` is entry `d % 32` of group `d / 32`, and entry `s` of group `g`
is column `32 g + s`; both views have the same row-major position. -/

section Layout
variable {α : Type}

/-- Row `p`, entry `s` of group `g` of the grouped view is row `p`, column `32 g + s` of the block. -/
theorem toGroups_at (x : S512x2048.Idx → α) (h : S512x2048.ShapeCasts S512x64x32) (p : Fin 512) (g : Fin 64) (s : Fin 32) :
    shapeCast S512x64x32 x h (ix3 p g s) = x (ix2 p (col g s)) :=
  shapeCast_apply x h (ix3 p g s) (ix2 p (col g s))
    (by rw [Shape.rowMajor_val_two, Shape.rowMajor_val_three]
        show p.val * 2048 + (32 * g.val + s.val) = (p.val * 64 + g.val) * 32 + s.val
        omega)

/-- Row `p`, column `d` of the flat view is entry `d % 32` of group `d / 32` of row `p`. -/
theorem ofGroups_at (y : S512x64x32.Idx → α) (h : S512x64x32.ShapeCasts S512x2048) (p : Fin 512) (d : Fin 2048) :
    shapeCast S512x2048 y h (ix2 p d) = y (ix3 p (grp d) ⟨d.val % 32, Nat.mod_lt _ (by decide)⟩) :=
  shapeCast_apply y h (ix2 p d) (ix3 p (grp d) ⟨d.val % 32, Nat.mod_lt _ (by decide)⟩)
    (by rw [Shape.rowMajor_val_two, Shape.rowMajor_val_three]
        show (p.val * 64 + d.val / 32) * 32 + d.val % 32 = p.val * 2048 + d.val
        omega)

/-- A trailing unit axis added to a `[512, 64]` array reads the array. -/
theorem addUnit_at (z : S512x64.Idx → α) (h : S512x64.ShapeCasts S512x64x1) (p : Fin 512) (g : Fin 64) (u : Fin 1) :
    shapeCast S512x64x1 z h (ix3 p g u) = z (ix2 p g) :=
  shapeCast_apply z h (ix3 p g u) (ix2 p g)
    (by rw [Shape.rowMajor_val_two, Shape.rowMajor_val_three]
        show p.val * 64 + g.val = (p.val * 64 + g.val) * 1 + u.val
        omega)

/-- Broadcasting along the unit axis reads the one entry there. -/
theorem bcastGroup_at (w : S512x64x1.Idx → α) (h : S512x64x1.Broadcasts S512x64x32) (p : Fin 512) (g : Fin 64) (s : Fin 32) :
    broadcastTo S512x64x32 w h (ix3 p g s) = w (ix3 p g 0) :=
  broadcastTo_apply w h (ix3 p g s) (ix3 p g 0) (fun a => match a with
    | ⟨0, _⟩ => by show p.val = if (512 : Nat) = 1 then 0 else p.val; rw [if_neg (by decide)]
    | ⟨1, _⟩ => by show g.val = if (64 : Nat) = 1 then 0 else g.val; rw [if_neg (by decide)]
    | ⟨2, _⟩ => by show 0 = if (1 : Nat) = 1 then 0 else s.val; rw [if_pos rfl])

/-- The bias row broadcast down the rows reads the bias at the column. -/
theorem bcastBias_at (b : S1x2048.Idx → α) (h : S1x2048.Broadcasts S512x2048) (p : Fin 512) (e : Fin 2048) :
    broadcastTo S512x2048 b h (ix2 p e) = b (ix2 0 e) :=
  broadcastTo_apply b h (ix2 p e) (ix2 0 e) (fun a => match a with
    | ⟨0, _⟩ => by show 0 = if (1 : Nat) = 1 then 0 else p.val; rw [if_pos rfl]
    | ⟨1, _⟩ => by show e.val = if (2048 : Nat) = 1 then 0 else e.val; rw [if_neg (by decide)])

end Layout

/-! ## The pointwise arithmetic and the group maximum -/

/-- The maximum over the last axis of a `[512, 64, 32]` block, started from minus infinity, at row `p`, group `g`. -/
theorem groupMax_at (y : FVec Ideal S512x64x32 .f32) (h : S512x64x32.Reduces [2] S512x64) (hφ : FKind.Formats .f32)
    (hacc : (0xFF800000#32 : BitVec FTy.f32.bits) = FKind.maximumf.neutral .f32 hφ) (p : Fin 512) (g : Fin 64) :
    multiReduction .maximumf [2] S512x64 y 0xFF800000#32 h hφ hacc (ix2 p g)
      = (Finset.univ : Finset (Fin 32)).fold max negInf fun s => y (ix3 p g s) := by
  rw [Ideal.multiReduction_maximumf_single]
  refine Finset.fold_congr fun s _ => ?_
  show y (h.lift (ix2 p g) s) = y (ix3 p g s)
  refine congrArg y (funext fun a => Fin.ext ?_)
  match a with
  | ⟨0, _⟩ => rfl
  | ⟨1, _⟩ => rfl
  | ⟨2, _⟩ => rfl

/-- Divide by the scale, round half to even, clamp to [-127, 127], multiply by the scale: pointwise this is `fq`. -/
theorem fq_at (G B : FVec Ideal S512x64x32 .f32) (i : S512x64x32.Idx) :
    mulf (minimumf (broadcast S512x64x32 (FloatOps.ofBits (F := Ideal) .f32 0x42FE0000#32))
      (maximumf (broadcast S512x64x32 (FloatOps.ofBits (F := Ideal) .f32 0xC2FE0000#32)) (roundeven (divf G B)))) B i
      = fq (G i) (B i) := rfl

/-- A 127th of a positive maximum and one otherwise: pointwise this is `scaleOf`. -/
theorem scaleOf_at (M : FVec Ideal S512x64x1 .f32) (i : S512x64x1.Idx) :
    select (cmpf .ogt M (broadcast S512x64x1 (FloatOps.ofBits (F := Ideal) .f32 0x00000000#32)))
      (divf M (broadcast S512x64x1 (FloatOps.ofBits (F := Ideal) .f32 0x42FE0000#32)))
      (broadcast S512x64x1 (FloatOps.ofBits (F := Ideal) .f32 0x3F800000#32)) i = scaleOf (M i) := rfl

/-- The group maximum of the magnitudes of the grouped view is the block's `rowMaxBlk`. -/
theorem groupMaxAbs_at (v : FVec Ideal S512x2048 .f32) (h1 : S512x2048.ShapeCasts S512x64x32)
    (h : S512x64x32.Reduces [2] S512x64) (hφ : FKind.Formats .f32)
    (hacc : (0xFF800000#32 : BitVec FTy.f32.bits) = FKind.maximumf.neutral .f32 hφ) (p : Fin 512) (g : Fin 64) :
    multiReduction .maximumf [2] S512x64 (absf (shapeCast S512x64x32 v h1)) 0xFF800000#32 h hφ hacc (ix2 p g)
      = rowMaxBlk (fun p' q' => v (ix2 p' q')) p g := by
  rw [groupMax_at]
  unfold rowMaxBlk
  refine Finset.fold_congr fun s _ => ?_
  show FloatOps.absf (shapeCast S512x64x32 v h1 (ix3 p g s)) = _
  rw [toGroups_at]
  rfl

theorem pay1_at (v0 : Vec Ideal S512x2048 .f32) (v23 : Vec Ideal S2048x2048 .bf16) (v26 : Vec Ideal S1x2048 .f32)
    (p : Fin 512) (e : Fin 2048) :
    k1_pay1 (F := Ideal) v0 v23 v26 (ix2 p e)
      = (∑ d : Fin 2048, fq (v0 (ix2 p d)) (scaleOf (rowMaxBlk (fun p' q' => v0 (ix2 p' q')) p (grp d))) * v23 (ix2 e d))
        + v26 (ix2 0 e) := by
  unfold k1_pay1
  dsimp only
  rw [addf_apply, matmul_at, bcastBias_at, shapeCast_self v26, shapeCast_self v23, shapeCast_self v0]
  refine congrArg (· + v26 (ix2 0 e)) (Finset.sum_congr rfl fun d _ => congrArg (· * v23 (ix2 e d)) ?_)
  rw [truncf_apply, ofGroups_at, fq_at, toGroups_at, bcastGroup_at, scaleOf_at, addUnit_at]
  refine congrArg₂ fq (congrArg v0 (congrArg (ix2 p) (Fin.ext ?_)))
    (congrArg scaleOf (groupMaxAbs_at v0 _ _ _ _ p (grp d)))
  show 32 * (d.val / 32) + d.val % 32 = d.val
  omega

end Cert.KernelIdeal.MatmulRegion

end
-- ==== Proof.K1Arr.lean ====
import proofs.«104684_j16587163697535_1_alg».proof.Proof.Gen.KernelIdeal.Frame
import proofs.«104684_j16587163697535_1_alg».proof.Proof.K1Pay
import Idealize.ShloMosaic.PureOps.Ideal.Laws
import Idealize.ShloMosaic.Lib.Pipeline.Value
import Idealize.ShloMosaic.Lib.ValueIdx

noncomputable section

namespace Cert.KernelIdeal.MatmulRegion

open Idealize.ShloMosaic Idealize.ShloMosaic.TcCoe Idealize.SL.Sem Idealize.ShloMosaic.ValueIdx
open Cert.KernelIdeal Cert.KernelIdeal.Gen Cert.BlockQuant

/-!
The matmul region writes its result 512 rows at a time. Row `p` of the block of grid point `t` is row
`512 t + p` of the activations, the weight and the bias blocks are the whole arrays, and the group maxima that
scale a row only look along that row, so a block's row is quantised exactly as the row of the whole array is.
Hence every block written back is the matching 512 rows of one function of the three arrays, and since the 32
blocks fill the 16384 rows, the array ends holding that function.
-/

theorem zeroOff : (![0, 0] : Fin 2 → Nat) = fun _ => 0 := funext fun a => by fin_cases a <;> rfl

/-- The largest magnitude of a group in a block's row is that of the same group in the array's row, when the two
    rows agree entry by entry. -/
theorem rowMaxBlk_eq (A1 : Vec Ideal S16384x2048 .f32) (x0 : Vec Ideal S512x2048 .f32)
    (p : Fin 512) (i : Fin 16384)
    (h0 : ∀ d : Fin 2048, x0 (ix2 p d) = A1 (ix2 i d)) (g : Fin 64) :
    rowMaxBlk (fun p' q' => x0 (ix2 p' q')) p g = rowMax (fun i' d' => A1 (ix2 i' d')) i g := by
  unfold rowMaxBlk rowMax
  exact Finset.fold_congr fun s _ => congrArg mag (h0 (col g s))

/-- The body's result at row `p`, column `e` of a block, when row `p` of the activation block is row `i` of the
    array `A1`, row `e` of the weight block is row `e'` of `A0` and the bias entry `e` is entry `e'` of `A2`:
    the quantised row `i` against row `e'` of the weights, plus the bias. -/
theorem payAtCoords (A1 : Vec Ideal S16384x2048 .f32) (A0 : Vec Ideal S2048x2048 .bf16) (A2 : Vec Ideal S1x2048 .f32)
    (x0 : Vec Ideal S512x2048 .f32) (x1 : Vec Ideal S2048x2048 .bf16) (x2 : Vec Ideal S1x2048 .f32)
    (p : Fin 512) (e : Fin 2048) (i : Fin 16384) (e' : Fin 2048)
    (h0 : ∀ d : Fin 2048, x0 (ix2 p d) = A1 (ix2 i d))
    (h1 : ∀ d : Fin 2048, x1 (ix2 e d) = A0 (ix2 e' d))
    (h2 : x2 (ix2 0 e) = A2 (ix2 0 e')) :
    k1_pay1 (F := Ideal) x0 x1 x2 (ix2 p e)
      = (∑ d : Fin 2048, qx (fun i d' => A1 (ix2 i d')) i d * A0 (ix2 e' d)) + A2 (ix2 0 e') := by
  rw [pay1_at, h2]
  congr 1
  refine Finset.sum_congr rfl fun d _ => ?_
  unfold qx
  rw [h1 d, rowMaxBlk_eq A1 x0 p i h0 (grp d), h0 d]

/-- The same at an index `y` of the block and an index `j` of the array, the rows and columns related through their
    coordinates. -/
theorem payAtBlock (A1 : Vec Ideal S16384x2048 .f32) (A0 : Vec Ideal S2048x2048 .bf16) (A2 : Vec Ideal S1x2048 .f32)
    (x0 : Vec Ideal S512x2048 .f32) (x1 : Vec Ideal S2048x2048 .bf16) (x2 : Vec Ideal S1x2048 .f32)
    (y : S512x2048.Idx) (j : S16384x2048.Idx)
    (h0 : ∀ d : Fin 2048, x0 (ix2 (y 0) d) = A1 (ix2 (j 0) d))
    (h1 : ∀ d : Fin 2048, x1 (ix2 (y 1) d) = A0 (ix2 (j 1) d))
    (h2 : x2 (ix2 0 (y 1)) = A2 (ix2 0 (j 1))) :
    k1_pay1 (F := Ideal) x0 x1 x2 y
      = (∑ d : Fin 2048, qx (fun i d' => A1 (ix2 i d')) (j 0) d * A0 (ix2 (j 1) d)) + A2 (ix2 0 (j 1)) := by
  obtain ⟨p, e, rfl⟩ : ∃ (p : Fin 512) (e : Fin 2048), y = ix2 p e := ⟨y 0, y 1, eq_ix2 y⟩
  exact payAtCoords A1 A0 A2 x0 x1 x2 p e (j 0) (j 1) h0 h1 h2

/-- The block indices over the grid: the activation and result windows are at block row `t`, block column 0; the
    weight and bias windows stay at block (0, 0). -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- Row `p` of the activation block at point `t` is row `512 t + p` of the activations. -/
theorem actBlock_at (t : Fin cfg1.N) (p : Fin 512) (d : Fin 2048) (i : Fin 16384)
    (hi : i.val = 512 * t.val + p.val) :
    (iblk1 V c 0 t : Vec Ideal S512x2048 .f32) (ix2 p d) = (V c main_v1 : Vec Ideal S16384x2048 .f32) (ix2 i d) := by
  obtain ⟨e0, e1, -⟩ := blockIdx t
  unfold iblk1
  rw [View.read_apply]
  show V c main_v1 (((cfg1.win 0).blk t).view.emb (ix2 p d)) = V c main_v1 (ix2 i d)
  congr 1
  funext a; apply Fin.ext
  match a with
  | ⟨0, _⟩ => show win1_0.index t (0 : Fin 2) * 512 + 1 * p.val = i.val; omega
  | ⟨1, _⟩ => show win1_0.index t (1 : Fin 2) * 2048 + 1 * d.val = d.val; omega

/-- The weight block at any point is the whole weight array. -/
theorem wBlock_at (t : Fin cfg1.N) (e d : Fin 2048) :
    (iblk1 V c 1 t : Vec Ideal S2048x2048 .bf16) (ix2 e d) = (V c main_v0 : Vec Ideal S2048x2048 .bf16) (ix2 e d) := by
  obtain ⟨-, -, e0, e1, -⟩ := blockIdx t
  unfold iblk1
  rw [View.read_apply]
  show V c main_v0 (((cfg1.win 1).blk t).view.emb (ix2 e d)) = V c main_v0 (ix2 e d)
  congr 1
  funext a; apply Fin.ext
  match a with
  | ⟨0, _⟩ => show win1_1.index t (0 : Fin 2) * 2048 + 1 * e.val = e.val; omega
  | ⟨1, _⟩ => show win1_1.index t (1 : Fin 2) * 2048 + 1 * d.val = d.val; omega

/-- The bias block at any point is the whole bias row. -/
theorem biasBlock_at (t : Fin cfg1.N) (e : Fin 2048) :
    (iblk1 V c 2 t : Vec Ideal S1x2048 .f32) (ix2 0 e) = (V c main_v2 : Vec Ideal S1x2048 .f32) (ix2 0 e) := by
  obtain ⟨-, -, -, -, e0, e1, -⟩ := blockIdx t
  unfold iblk1
  rw [View.read_apply]
  show V c main_v2 (((cfg1.win 2).blk t).view.emb (ix2 0 e)) = V c main_v2 (ix2 0 e)
  congr 1
  funext a; apply Fin.ext
  match a with
  | ⟨0, _⟩ => show win1_2.index t (0 : Fin 2) * 1 + 1 * 0 = 0; omega
  | ⟨1, _⟩ => show win1_2.index t (1 : Fin 2) * 2048 + 1 * e.val = e.val; omega

/-- The array the region leaves: each row of activations quantised group by group, multiplied with the weight
    rows, plus the bias. -/
abbrev rowsOut : S16384x2048.Idx → EReal := fun j =>
  (∑ d : Fin 2048, qx (fun i d' => V c main_v1 (ix2 i d')) (j 0) d * V c main_v0 (ix2 (j 1) d)) + V c main_v2 (ix2 0 (j 1))

/-- What grid point `t` writes back is rows `512 t … 512 t + 511` of that array. -/
theorem flushedRows (t : Fin cfg1.N) :
    (dat1 (F := Ideal) V c).flushed 3 t = ((cfg1.win 3).blk t).view.read (Elt Ideal) (rowsOut V c) := by
  show (cfg1.win 3).cut (grid1.coords t) ((dat1 V c).after 3 t) = _
  rw [after1_3]
  unfold out1_3
  rw [View.canon_unit_zero zeroOff]
  simp only [View.ld_unit_zero (S := S512x2048) zeroOff, View.ld_unit_zero (S := S2048x2048) zeroOff, View.ld_unit_zero (S := S1x2048) zeroOff]
  obtain ⟨-, -, -, -, -, -, e0, e1⟩ := blockIdx t
  funext y
  show k1_pay1 (F := Ideal) (iblk1 V c 0 t) (iblk1 V c 1 t) (iblk1 V c 2 t) y = rowsOut V c (((cfg1.win 3).blk t).view.emb y)
  have hy0 : (y 0).val < 512 := (y 0).isLt
  have hy1 : (y 1).val < 2048 := (y 1).isLt
  have hr : ((((cfg1.win 3).blk t).view.emb y) 0).val = 512 * t.val + (y 0).val := by
    show win1_3.index t (0 : Fin 2) * 512 + 1 * (y 0).val = _; omega
  have hc : (((cfg1.win 3).blk t).view.emb y) 1 = y 1 := by
    apply Fin.ext
    show win1_3.index t (1 : Fin 2) * 2048 + 1 * (y 1).val = _; omega
  refine payAtBlock (V c main_v1) (V c main_v0) (V c main_v2) (iblk1 V c 0 t) (iblk1 V c 1 t) (iblk1 V c 2 t) y
    (((cfg1.win 3).blk t).view.emb y) (fun d => actBlock_at V c t (y 0) d _ hr) (fun d => ?_) ?_
  · rw [hc]; exact wBlock_at V c t (y 1) d
  · rw [hc]; exact biasBlock_at V c t (y 1)

/-- An index of the result array lies in point `t`'s block iff each coordinate lies in the block's range on its axis. -/
theorem mem_rowsBlock (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- Every index of the result array is in the block of the point its row falls to: row `r` belongs to point `r / 512`. -/
theorem rowsCovered (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  have hN : cfg1.N = 32 := N_1
  let t : Fin cfg1.N := ⟨(i 0).val / 512, by rw [hN]; omega⟩
  obtain ⟨-, -, -, -, -, -, e0, e1⟩ := blockIdx t
  have ht : t.val = (i 0).val / 512 := rfl
  refine ⟨t, flush1_3 t, ?_⟩
  rw [mem_rowsBlock]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

end

/-- The blocks written back are the rows of one function of the three arrays and they fill the result array, so
    the array ends holding that function. -/
theorem arr1 (V : (c : Dev nD) → (b : Ref sig .tc) → Buf (Elt Ideal) ((c : Thread nD τ).loc b)) (c : Dev nD) :
    (dat1 (F := Ideal) V c).arrAt 3 cfg1.N
      = fun j => (∑ d : Fin 2048, qx (fun i d' => V c main_v1 (ix2 i d')) (j 0) d * V c main_v0 (ix2 (j 1) d))
          + V c main_v2 (ix2 0 (j 1)) :=
  (dat1 (F := Ideal) V c).arrAt_eq_of_cover 3 (rowsOut V c) (fun t _ => flushedRows V c t) rowsCovered

end Cert.KernelIdeal.MatmulRegion

end
-- ==== Proof.KernelValue.lean ====
/-
  The kernel program's result as one function of its three arguments.

  The program runs two kernel regions with reshapes between them.  Region 0 leaves the quantised weight matrix in
  its output array; the host then lays the activations out as 16384 rows and the bias as a one-row matrix; region 1
  leaves, at row `i` and output feature `e`, the sum over the input features of the quantised activation times the
  quantised weight, plus the bias; the last reshape returns the rows to the batched layout.  Each reshape is read at
  an index by its row-major position, so the composition is the specification's `result` index by index.
-/
import proofs.«104684_j16587163697535_1_alg».proof.Proof.Gen.KernelIdeal.Frame
import proofs.«104684_j16587163697535_1_alg».proof.Proof.K0Arr
import proofs.«104684_j16587163697535_1_alg».proof.Proof.K1Arr
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.ValueIdx Idealize.ShloMosaic.StableHlo
open Cert.KernelIdeal Cert.KernelIdeal.Gen Cert.BlockQuant

variable (m : (ℓ : Loc nD τ sig) → Buf (Elt Ideal) ℓ) (ρ : Dev nD → PrngReg)

/-- Region 1 finds the activations reshaped to 16384 rows. -/
theorem entry_rows (c : Dev nD) :
    (V2 m ρ c main_v1 : S16384x2048.Idx → EReal)
      = shapeCast S16384x2048 (m ((c : Thread nD τ).loc main_arg0)) shapeCasts_S4x4096x2048_S16384x2048 := by
  show StableHlo.after hostOps1 (W1 m ρ c) (Proc.devRef .tc main_v1) = _
  after_results
  rw [W1_of_ne m ρ c main_arg0 (by decide)]
  rfl

/-- Region 1 finds the bias reshaped to one row. -/
theorem entry_bias (c : Dev nD) :
    (V2 m ρ c main_v2 : S1x2048.Idx → EReal)
      = shapeCast S1x2048 (m ((c : Thread nD τ).loc main_arg2)) shapeCasts_S2048_S1x2048 := by
  show StableHlo.after hostOps1 (W1 m ρ c) (Proc.devRef .tc main_v2) = _
  after_results
  rw [W1_of_ne m ρ c main_arg2 (by decide)]
  rfl

/-- Region 1 finds, in region 0's output array, what region 0 left there. -/
theorem entry_weights (c : Dev nD) :
    (V2 m ρ c main_v0 : S2048x2048.Idx → EReal) = (dat0 (F := Ideal) (V0 m ρ) c).arrAt 1 cfg0.N := by
  show StableHlo.after hostOps1 (W1 m ρ c) (Proc.devRef .tc main_v0) = _
  after_results
  exact W1_arr m ρ c 1

/-- The result buffer ends at the reshape of what region 1 left in its output array. -/
theorem exit_result (c : Dev nD) :
    (W4 m ρ c (Proc.devRef .tc main_v4) : S4x4096x2048.Idx → EReal)
      = shapeCast S4x4096x2048 ((dat1 (F := Ideal) (V2 m ρ) c).arrAt 3 cfg1.N) shapeCasts_S16384x2048_S4x4096x2048 := by
  show StableHlo.after hostOps2 (W3 m ρ c) (Proc.devRef .tc main_v4) = _
  after_results
  rw [show W3 m ρ c (Proc.devRef .tc main_v3) = (dat1 (F := Ideal) (V2 m ρ) c).arrAt 3 cfg1.N from W3_arr m ρ c 3]
  rfl

/-- Row `i`, entry `d` of the reshaped activations is the batched array at batch `i / 4096`, row `i % 4096`. -/
theorem rows_apply (x : S4x4096x2048.Idx → EReal) (i : Fin 16384) (d : Fin 2048) :
    shapeCast S16384x2048 x shapeCasts_S4x4096x2048_S16384x2048 (ix2 i d) = rowsOf x i d := by
  unfold rowsOf
  refine shapeCast_apply x _ _ _ ?_
  rw [Shape.rowMajor_val_three, Shape.rowMajor_val_two]
  have hi := i.isLt
  show ((i.val / 4096) * 4096 + i.val % 4096) * 2048 + d.val = i.val * 2048 + d.val
  omega

/-- Entry `e` of the one-row bias is the bias at `e`. -/
theorem bias_apply (b : S2048.Idx → EReal) (e : Fin 2048) :
    shapeCast S1x2048 b shapeCasts_S2048_S1x2048 (ix2 0 e) = vecOf b e := by
  unfold vecOf
  refine shapeCast_apply b _ _ _ ?_
  rw [Shape.rowMajor_val_one, Shape.rowMajor_val_two]
  show e.val = 0 * 2048 + e.val
  omega

/-- The kernel program's result buffer after the run, as the specification's function of the three arguments. -/
theorem value (c : Dev nD) :
    (W4 m ρ c (Proc.devRef .tc main_v4) : S4x4096x2048.Idx → EReal)
      = result (m ((c : Thread nD τ).loc main_arg0)) (m ((c : Thread nD τ).loc main_arg1)) (m ((c : Thread nD τ).loc main_arg2)) := by
  rw [exit_result, MatmulRegion.arr1]
  funext j
  rw [shapeCast_apply _ shapeCasts_S16384x2048_S4x4096x2048 j (ix2 (row (j 0) (j 1)) (j 2)) (by
    rw [Shape.rowMajor_val_two, Shape.rowMajor_val_three]; rfl)]
  unfold result out
  dsimp only
  refine congrArg₂ (· + ·) (Finset.sum_congr rfl fun d _ => congrArg₂ (· * ·) ?_ ?_) ?_
  · refine congrArg (fun X => qx X (row (j 0) (j 1)) d) (funext fun i => funext fun d' => ?_)
    rw [entry_rows]; exact rows_apply _ i d'
  · rw [entry_weights, WeightRegion.arr0]; rfl
  · rw [entry_bias]; exact bias_apply _ (j 2)

end Cert.KernelIdeal.KernelValue

end
-- ==== Proof.RefX.lean ====
import proofs.«104684_j16587163697535_1_alg».proof.Proof.Gen.ReferenceIdeal.Read
import proofs.«104684_j16587163697535_1_alg».proof.Proof.Spec
import Idealize.ShloMosaic.PureOps.Ideal.Laws
import Idealize.ShloMosaic.Lib.Pipeline.Value
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.BlockQuant

open Cert.ReferenceIdeal.Gen

/-- The activations cut into groups: entry `t` of group `g` of row `(b, s)` in the five-axis view is entry
    `32 g + t` of that row, because the flat position `((b·4096 + s)·64 + g)·32 + t` is `(b·4096 + s)·2048 + (32 g + t)`. -/
theorem v0_at (x : (⟨S4x4096x2048, .f32⟩ : BufTy).Contents (Elt Ideal)) (b : Fin 4) (s : Fin 4096) (z : Fin 1)
    (g : Fin 64) (t : Fin 32) :
    val_main_v0 (F := Ideal) x (ix5 b s z g t) = x (ix3 b s (col g t)) := by
  rw [val_main_v0_apply]
  congr 1
  funext a
  match a with
  | ⟨0, _⟩ => exact Fin.ext (by show ((((b.val * 4096 + s.val) * 1 + z.val) * 64 + g.val) * 32 + t.val) / 8388608 = b.val; omega)
  | ⟨1, _⟩ => exact Fin.ext (by show ((((b.val * 4096 + s.val) * 1 + z.val) * 64 + g.val) * 32 + t.val) / 2048 % 4096 = s.val; omega)
  | ⟨2, _⟩ => exact Fin.ext (by show ((((b.val * 4096 + s.val) * 1 + z.val) * 64 + g.val) * 32 + t.val) % 2048 = 32 * g.val + t.val; omega)

/-- The five-axis indices that lose axes 2 and 4 to become `(b, s, g)` are exactly the 32 indices `(b, s, 0, g, t)`:
    axis 2 has a single coordinate, and axis 4 is free. -/
theorem fiber_eq (b : Fin 4) (s : Fin 4096) (g : Fin 64) :
    (Finset.univ.filter fun i : S4x4096x1x64x32.Idx =>
        reducesTo_S4x4096x1x64x32_S4x4096x64_d2_4.drop i = ix3 b s g)
      = Finset.univ.image (fun t : Fin 32 => (ix5 b s (0 : Fin 1) g t : S4x4096x1x64x32.Idx)) := by
  ext i
  simp only [Finset.mem_filter, Finset.mem_univ, true_and, Finset.mem_image]
  have d0 := reducesTo_S4x4096x1x64x32_S4x4096x64_d2_4.drop_apply_val_of_eq i 0 0
  have d1 := reducesTo_S4x4096x1x64x32_S4x4096x64_d2_4.drop_apply_val_of_eq i 1 1
  have d2 := reducesTo_S4x4096x1x64x32_S4x4096x64_d2_4.drop_apply_val_of_eq i 2 3
  constructor
  · intro h
    refine ⟨i 4, ?_⟩
    have e0 : (reducesTo_S4x4096x1x64x32_S4x4096x64_d2_4.drop i 0).val = b.val := congrArg (fun f => (f 0).val) h
    have e1 : (reducesTo_S4x4096x1x64x32_S4x4096x64_d2_4.drop i 1).val = s.val := congrArg (fun f => (f 1).val) h
    have e2 : (reducesTo_S4x4096x1x64x32_S4x4096x64_d2_4.drop i 2).val = g.val := congrArg (fun f => (f 2).val) h
    have h2 : (i 2).val < 1 := (i 2).isLt
    funext a
    match a with
    | ⟨0, _⟩ => exact Fin.ext (by show b.val = (i 0).val; omega)
    | ⟨1, _⟩ => exact Fin.ext (by show s.val = (i 1).val; omega)
    | ⟨2, _⟩ => exact Fin.ext (by show 0 = (i 2).val; omega)
    | ⟨3, _⟩ => exact Fin.ext (by show g.val = (i 3).val; omega)
    | ⟨4, _⟩ => rfl
  · rintro ⟨t, rfl⟩
    funext a
    match a with
    | ⟨0, _⟩ => exact Fin.ext d0
    | ⟨1, _⟩ => exact Fin.ext d1
    | ⟨2, _⟩ => exact Fin.ext d2

/-- Distinct `t` give distinct indices `(b, s, 0, g, t)`: the last coordinate is `t`. -/
theorem ix5_inj (b : Fin 4) (s : Fin 4096) (g : Fin 64) :
    Function.Injective (fun t : Fin 32 => (ix5 b s (0 : Fin 1) g t : S4x4096x1x64x32.Idx)) :=
  fun t t' h => congrFun h 4

/-- Row `b·4096 + s` of the 16384 rows is row `s` of batch `b`: the quotient by 4096 is `b`, the remainder `s`. -/
theorem rows_at (x : (⟨S4x4096x2048, .f32⟩ : BufTy).Contents (Elt Ideal)) (b : Fin 4) (s : Fin 4096) (d : Fin 2048) :
    rowsOf x (row b s) d = x (ix3 b s d) := by
  unfold rowsOf
  congr 1
  funext a
  match a with
  | ⟨0, _⟩ => exact Fin.ext (by show (b.val * 4096 + s.val) / 4096 = b.val; omega)
  | ⟨1, _⟩ => exact Fin.ext (by show (b.val * 4096 + s.val) % 4096 = s.val; omega)
  | ⟨2, _⟩ => rfl

/-- The reduction over axes 2 and 4 at `(b, s, g)` is the largest magnitude in group `g` of row `(b, s)`: a fold of
    `max` from minus infinity over a set is carried along the bijection `t ↦ (b, s, 0, g, t)` to the fold over
    `t : Fin 32`, and the magnitude of the entry read there is `max a (-a)` of entry `32 g + t` of the row. -/
theorem v2_at (x : (⟨S4x4096x2048, .f32⟩ : BufTy).Contents (Elt Ideal)) (b : Fin 4) (s : Fin 4096) (g : Fin 64) :
    val_main_v2 (F := Ideal) x (ix3 b s g) = rowMax (rowsOf x) (row b s) g := by
  unfold val_main_v2
  rw [Host.reduce_eq_fold, fiber_eq, Finset.fold_image (fun t _ t' _ h => ix5_inj b s g h)]
  unfold rowMax
  show Finset.fold max negInf (fun t => val_main_v1 (F := Ideal) x (ix5 b s 0 g t)) Finset.univ = _
  refine Finset.fold_congr (fun t _ => ?_)
  rw [val_main_v1_apply, v0_at, rows_at]
  rfl

/-- The group maxima spread back over the two unit axes: at `(b, s, ·, g, ·)` the value is the group's maximum. -/
theorem v3_at (x : (⟨S4x4096x2048, .f32⟩ : BufTy).Contents (Elt Ideal)) (b : Fin 4) (s : Fin 4096) (z : Fin 1)
    (g : Fin 64) (z' : Fin 1) :
    val_main_v3 (F := Ideal) x (ix5 b s z g z') = rowMax (rowsOf x) (row b s) g := by
  rw [val_main_v3_apply, ← v2_at]
  congr 1
  funext a
  match a with
  | ⟨0, _⟩ => rfl
  | ⟨1, _⟩ => rfl
  | ⟨2, _⟩ => rfl

/-- The scale of group `g` of row `(b, s)`: the maximum over 127 where the maximum is positive, one otherwise. -/
theorem v9_at (x : (⟨S4x4096x2048, .f32⟩ : BufTy).Contents (Elt Ideal)) (b : Fin 4) (s : Fin 4096) (z : Fin 1)
    (g : Fin 64) (z' : Fin 1) :
    val_main_v9 (F := Ideal) x (ix5 b s z g z') = scaleOf (rowMax (rowsOf x) (row b s) g) := by
  rw [val_main_v9_apply, val_main_v5_apply, val_main_v7_apply, v3_at, val_main_v4_apply, val_main_v6_apply,
    val_main_v8_apply]
  rfl

/-- In the five-axis view the entry `(b, s, ·, g, t)` is entry `32 g + t` of the row, divided by its group's scale,
    rounded half to even, clamped to [-127, 127] and multiplied by the scale: the scale read for the division and the one
    read for the product are the same element, the group's. -/
theorem v15_at (x : (⟨S4x4096x2048, .f32⟩ : BufTy).Contents (Elt Ideal)) (b : Fin 4) (s : Fin 4096) (z : Fin 1)
    (g : Fin 64) (t : Fin 32) :
    val_main_v15 (F := Ideal) x (ix5 b s z g t)
      = fq (x (ix3 b s (col g t))) (scaleOf (rowMax (rowsOf x) (row b s) g)) := by
  have h10 : idx_main_v10 (ix5 b s z g t) = ix5 b s (0 : Fin 1) g (0 : Fin 1) := by
    funext a
    match a with
    | ⟨0, _⟩ => rfl
    | ⟨1, _⟩ => rfl
    | ⟨2, _⟩ => rfl
    | ⟨3, _⟩ => rfl
    | ⟨4, _⟩ => rfl
  have h14 : idx_main_v14 (ix5 b s z g t) = ix5 b s (0 : Fin 1) g (0 : Fin 1) := by
    funext a
    match a with
    | ⟨0, _⟩ => rfl
    | ⟨1, _⟩ => rfl
    | ⟨2, _⟩ => rfl
    | ⟨3, _⟩ => rfl
    | ⟨4, _⟩ => rfl
  rw [val_main_v15_apply, val_main_v13_apply, val_main_v14_apply, val_main_call2_v4_apply, val_main_call2_v3_apply,
    val_main_cst_4_apply, val_main_call2_v2_apply, val_main_call2_v1_apply, val_main_call2_v0_apply,
    val_main_cst_3_apply, val_main_v12_apply, val_main_v11_apply, val_main_v10_apply, v0_at, h10, h14, v9_at]
  rfl

/-- The quantised activations of the reference at `(b, s, d)`: entry `d` of the row lies in group `d / 32` at place
    `d % 32`, and `32 (d / 32) + d % 32 = d`. -/
theorem refx_at (x : (⟨S4x4096x2048, .f32⟩ : BufTy).Contents (Elt Ideal)) (b : Fin 4) (s : Fin 4096) (d : Fin 2048) :
    val_main_v16 (F := Ideal) x (ix3 b s d) = qx (rowsOf x) (row b s) d := by
  have hidx : idx_main_v16 (ix3 b s d)
      = ix5 b s (0 : Fin 1) (grp d) (⟨d.val % 32, Nat.mod_lt _ (by decide)⟩ : Fin 32) := by
    funext a
    match a with
    | ⟨0, _⟩ => exact Fin.ext (by show ((b.val * 4096 + s.val) * 2048 + d.val) / 8388608 = b.val; omega)
    | ⟨1, _⟩ => exact Fin.ext (by show ((b.val * 4096 + s.val) * 2048 + d.val) / 2048 % 4096 = s.val; omega)
    | ⟨2, _⟩ => rfl
    | ⟨3, _⟩ => exact Fin.ext (by show ((b.val * 4096 + s.val) * 2048 + d.val) / 32 % 64 = d.val / 32; omega)
    | ⟨4, _⟩ => exact Fin.ext (by show ((b.val * 4096 + s.val) * 2048 + d.val) % 32 = d.val % 32; omega)
  have hcol : col (grp d) (⟨d.val % 32, Nat.mod_lt _ (by decide)⟩ : Fin 32) = d :=
    Fin.ext (by show 32 * (d.val / 32) + d.val % 32 = d.val; omega)
  rw [val_main_v16_apply, hidx, v15_at, hcol, ← rows_at x b s d]
  rfl

end Cert.ReferenceIdeal.RefValue

end
-- ==== Proof.RefW.lean ====
import proofs.«104684_j16587163697535_1_alg».proof.Proof.Gen.ReferenceIdeal.Read
import proofs.«104684_j16587163697535_1_alg».proof.Proof.Spec
import Idealize.ShloMosaic.PureOps.Ideal.Laws
import Idealize.ShloMosaic.Lib.Pipeline.Value
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.BlockQuant

/-- The reduce over axes 1 and 3 keeps axes 0 and 2: an index drops to (a, b) exactly when those two coordinates are a and b. -/
theorem drop_eq_iff (i : S64x32x64x32.Idx) (a b : Fin 64) :
    Gen.reducesTo_S64x32x64x32_S64x64_d1_3.drop i = ix2 a b ↔ i 0 = a ∧ i 2 = b := by
  constructor
  · intro h
    refine ⟨Fin.ext ?_, Fin.ext ?_⟩
    · rw [← Gen.reducesTo_S64x32x64x32_S64x64_d1_3.drop_apply_val_of_eq i 0 0, h]
    · rw [← Gen.reducesTo_S64x32x64x32_S64x64_d1_3.drop_apply_val_of_eq i 1 2, h]
  · rintro ⟨rfl, rfl⟩
    funext c
    apply Fin.ext
    match c with
    | ⟨0, _⟩ => exact Gen.reducesTo_S64x32x64x32_S64x64_d1_3.drop_apply_val_of_eq i 0 0
    | ⟨1, _⟩ => exact Gen.reducesTo_S64x32x64x32_S64x64_d1_3.drop_apply_val_of_eq i 1 2

/-- The reshaped transpose at (a, r, b, s) is the weight at row 32 b + s, column 32 a + r. -/
theorem elem_at (w : (⟨S2048x2048, .f32⟩ : BufTy).Contents (Elt Ideal)) (a b : Fin 64) (r s : Fin 32) :
    val_main_v18 (F := Ideal) w (ix4 a r b s) = matOf w (col b s) (col a r) := by
  have e : idx_main_v17 (idx_main_v18 (ix4 a r b s)) = ix2 (col b s) (col a r) := by
    funext c
    apply Fin.ext
    match c with
    | ⟨0, _⟩ =>
      show (((a.val * 32 + r.val) * 64 + b.val) * 32 + s.val) % 2048 = 32 * b.val + s.val
      omega
    | ⟨1, _⟩ =>
      show (((a.val * 32 + r.val) * 64 + b.val) * 32 + s.val) / 2048 = 32 * a.val + r.val
      omega
  rw [val_main_v18_apply, val_main_v17_apply, e]
  rfl

/-- The magnitude array at (a, r, b, s) of the reshaped transpose is the magnitude of the weight at row 32 b + s, column 32 a + r. -/
theorem abs_at (w : (⟨S2048x2048, .f32⟩ : BufTy).Contents (Elt Ideal)) (a b : Fin 64) (r s : Fin 32) :
    val_main_v19 (F := Ideal) w (ix4 a r b s) = mag (matOf w (col b s) (col a r)) := by
  rw [val_main_v19_apply, elem_at]
  rfl

/-- The reduce at tile (a, b) of the transpose is the largest magnitude in the weight's own tile (b, a): both are the
    least upper bound of the same 1024 magnitudes and of minus infinity. -/
theorem tile_at (w : (⟨S2048x2048, .f32⟩ : BufTy).Contents (Elt Ideal)) (a b : Fin 64) :
    val_main_v20 (F := Ideal) w (ix2 a b) = tileMax (matOf w) b a := by
  unfold val_main_v20
  rw [Host.reduce_eq_fold]
  show (Finset.univ.filter fun i => Gen.reducesTo_S64x32x64x32_S64x64_d1_3.drop i = ix2 a b).fold max negInf
      (val_main_v19 (F := Ideal) w) = _
  unfold tileMax
  apply le_antisymm
  · rw [Finset.fold_max_le]
    refine ⟨(Finset.le_fold_max _).2 (Or.inl le_rfl), fun i hi => ?_⟩
    obtain ⟨a', r, b', s, rfl⟩ : ∃ (a' : Fin 64) (r : Fin 32) (b' : Fin 64) (s : Fin 32), i = ix4 a' r b' s :=
      ⟨i 0, i 1, i 2, i 3, eq_ix4 i⟩
    have h : a' = a ∧ b' = b := (drop_eq_iff _ a b).1 (Finset.mem_filter.1 hi).2
    obtain ⟨rfl, rfl⟩ := h
    rw [abs_at]
    exact (Finset.le_fold_max _).2 (Or.inr ⟨s, Finset.mem_univ _,
      (Finset.le_fold_max _).2 (Or.inr ⟨r, Finset.mem_univ _, le_rfl⟩)⟩)
  · rw [Finset.fold_max_le]
    refine ⟨(Finset.le_fold_max _).2 (Or.inl le_rfl), fun s _ => ?_⟩
    rw [Finset.fold_max_le]
    refine ⟨(Finset.le_fold_max _).2 (Or.inl le_rfl), fun r _ => ?_⟩
    refine (Finset.le_fold_max _).2 (Or.inr ⟨ix4 a r b s, ?_, ?_⟩)
    · exact Finset.mem_filter.2 ⟨Finset.mem_univ _, (drop_eq_iff _ a b).2 ⟨rfl, rfl⟩⟩
    · rw [abs_at]

/-- The scale broadcast to (a, r, b, s) is the scale of the weight's tile (b, a). -/
theorem scale_at (w : (⟨S2048x2048, .f32⟩ : BufTy).Contents (Elt Ideal)) (a b : Fin 64) (r s : Fin 32) :
    val_main_v27 (F := Ideal) w (idx_main_v28 (ix4 a r b s)) = scaleOf (tileMax (matOf w) b a) := by
  have e21 : idx_main_v21 (idx_main_v28 (ix4 a r b s)) = ix2 a b := by
    funext c
    match c with
    | ⟨0, _⟩ => rfl
    | ⟨1, _⟩ => rfl
  rw [val_main_v27_apply, val_main_v23_apply, val_main_v25_apply, val_main_v26_apply, val_main_v21_apply,
    val_main_v22_apply, val_main_v24_apply, e21, tile_at]
  rfl

/-- The quantised and rescaled entry at (a, r, b, s). -/
theorem quant_at (w : (⟨S2048x2048, .f32⟩ : BufTy).Contents (Elt Ideal)) (a b : Fin 64) (r s : Fin 32) :
    val_main_v33 (F := Ideal) w (ix4 a r b s)
      = fq (matOf w (col b s) (col a r)) (scaleOf (tileMax (matOf w) b a)) := by
  rw [val_main_v33_apply, val_main_v31_apply, val_main_v32_apply, val_main_call5_v4_apply, val_main_call5_v2_apply,
    val_main_call5_v1_apply, val_main_v30_apply, val_main_v29_apply, val_main_v28_apply, elem_at, scale_at]
  rfl

theorem refw_at (w : (⟨S2048x2048, .f32⟩ : BufTy).Contents (Elt Ideal)) (d e : Fin 2048) :
    val_main_v34 (F := Ideal) w (ix2 d e) = qw (matOf w) e d := by
  have e34 : idx_main_v34 (ix2 d e)
      = ix4 (grp d) (⟨d.val % 32, Nat.mod_lt _ (by decide)⟩ : Fin 32) (grp e) (⟨e.val % 32, Nat.mod_lt _ (by decide)⟩ : Fin 32) := by
    funext c
    apply Fin.ext
    match c with
    | ⟨0, _⟩ => show (d.val * 2048 + e.val) / 65536 = d.val / 32; omega
    | ⟨1, _⟩ => show (d.val * 2048 + e.val) / 2048 % 32 = d.val % 32; omega
    | ⟨2, _⟩ => show (d.val * 2048 + e.val) / 32 % 64 = e.val / 32; omega
    | ⟨3, _⟩ => show (d.val * 2048 + e.val) % 32 = e.val % 32; omega
  have he : col (grp e) (⟨e.val % 32, Nat.mod_lt _ (by decide)⟩ : Fin 32) = e :=
    Fin.ext (by show 32 * (e.val / 32) + e.val % 32 = e.val; omega)
  have hd : col (grp d) (⟨d.val % 32, Nat.mod_lt _ (by decide)⟩ : Fin 32) = d :=
    Fin.ext (by show 32 * (d.val / 32) + d.val % 32 = d.val; omega)
  rw [val_main_v34_apply, e34, quant_at, he, hd]
  rfl

end Cert.ReferenceIdeal.RefValue

end
-- ==== Proof.RefValue.lean ====
/-
  The reference's result as the same function of its three arguments.

  The reference multiplies the quantised activations (batch, row, input feature) with the quantised transposed weight
  (input feature, output feature) and adds the bias along the last axis.  Read at an index, the product is a sum over
  the input feature of the two quantised entries; the transposed weight's entry at (input, output) is the
  specification's quantised weight at (output, input), so the sum is the specification's `out` term by term.
-/
import proofs.«104684_j16587163697535_1_alg».proof.Proof.RefX
import proofs.«104684_j16587163697535_1_alg».proof.Proof.RefW

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.BlockQuant

/-- The reference's last stage is the specification's `result`. -/
theorem ref_eq (x : (⟨S4x4096x2048, .f32⟩ : BufTy).Contents (Elt Ideal)) (w : (⟨S2048x2048, .f32⟩ : BufTy).Contents (Elt Ideal))
    (b : (⟨S2048, .f32⟩ : BufTy).Contents (Elt Ideal)) :
    val_main_v38 (F := Ideal) x w b = result x w b := by
  funext j
  obtain ⟨b', s, e, rfl⟩ : ∃ (b' : Fin 4) (s : Fin 4096) (e : Fin 2048), j = ix3 b' s e := ⟨j 0, j 1, j 2, eq_ix3 j⟩
  rw [val_main_v38_apply, val_main_v35_apply, val_main_v37_apply, val_main_v36_apply]
  unfold result out
  dsimp only
  rw [Ideal.addf_def]
  refine congrArg₂ (· + ·) (Finset.sum_congr rfl fun d _ => congrArg₂ (· * ·) ?_ ?_) ?_
  · have hl : lidx_main_v35 (ix3 b' s e) d = ix3 b' s d :=
      funext fun a => Fin.ext (by match a with | ⟨0, _⟩ => rfl | ⟨1, _⟩ => rfl | ⟨2, _⟩ => rfl)
    rw [hl]; exact refx_at x b' s d
  · have hr : ridx_main_v35 (ix3 b' s e) d = ix2 d e :=
      funext fun a => Fin.ext (by match a with | ⟨0, _⟩ => rfl | ⟨1, _⟩ => rfl)
    rw [hr]; exact refw_at w d e
  · unfold vecOf
    exact congrArg b (funext fun a => Fin.ext (by match a with | ⟨0, _⟩ => rfl))

end Cert.ReferenceIdeal.RefValue

end
-- ==== Proof.lean ====
/-
  The certificate: a linear layer whose activations and weights are quantised to 8 bits by groups, as a kernel
  program of two kernel regions against its array reference.

  Both programs compute, over the extended reals, the function `Cert.BlockQuant.result` of the three arguments
  (Proof/Spec.lean).  On the kernel's side the first region quantises the weight matrix in 32 x 32 tiles, a tile's
  largest magnitude taken row by row and then over the rows; the second region quantises each row of the activations
  in groups of 32, multiplies it with the quantised weights contracting the input features, and adds the bias
  (Proof/K0Pay, K0Arr, K1Pay, K1Arr, KernelValue).  The reference quantises the TRANSPOSED weight matrix with one
  maximum over each tile; a tile of the transpose is the transpose of a tile and a maximum does not depend on the
  order it is taken in, so its entry at (input, output) is the kernel's at (output, input) (Proof/RefW); the
  activations are quantised alike (Proof/RefX), and the reference's product is the same sum over the input features
  (Proof/RefValue).  No law beyond commutativity and associativity of the maximum and the re-indexing of a finite
  sum is used, so the precondition is never opened.  The rewriting pass changed nothing in the kernel, so the
  idealisation claim is trivial.
-/
import proofs.«104684_j16587163697535_1_alg».proof.Defs
import proofs.«104684_j16587163697535_1_alg».proof.Proof.Gen.Kernel
import proofs.«104684_j16587163697535_1_alg».proof.Proof.Gen.Kernel.Skeleton
import proofs.«104684_j16587163697535_1_alg».proof.Proof.Gen.Kernel.Launch
import proofs.«104684_j16587163697535_1_alg».proof.Proof.Gen.Kernel.Points
import proofs.«104684_j16587163697535_1_alg».proof.Proof.Gen.Kernel.Frame
import proofs.«104684_j16587163697535_1_alg».proof.Proof.Gen.KernelIdeal
import proofs.«104684_j16587163697535_1_alg».proof.Proof.Gen.KernelIdeal.Skeleton
import proofs.«104684_j16587163697535_1_alg».proof.Proof.Gen.KernelIdeal.Launch
import proofs.«104684_j16587163697535_1_alg».proof.Proof.Gen.KernelIdeal.Points
import proofs.«104684_j16587163697535_1_alg».proof.Proof.Gen.KernelIdeal.Frame
import proofs.«104684_j16587163697535_1_alg».proof.Proof.Gen.ReferenceIdeal
import proofs.«104684_j16587163697535_1_alg».proof.Proof.Gen.Pre_finite_inputs
import proofs.«104684_j16587163697535_1_alg».proof.Proof.Gen.ReferenceIdeal.Run
import proofs.«104684_j16587163697535_1_alg».proof.Proof.Gen.ReferenceIdeal.Read
import proofs.«104684_j16587163697535_1_alg».proof.Proof.KernelRun
import proofs.«104684_j16587163697535_1_alg».proof.Proof.KernelValue
import proofs.«104684_j16587163697535_1_alg».proof.Proof.RefValue
import Idealize.ShloMosaic.Adequacy
import Idealize.ShloMosaic.Init

noncomputable section

namespace Cert.Proof

open Idealize.ShloMosaic Idealize.SL.Sem Cert.Kernel

/-- The kernel program runs and leaves its arguments unchanged, read word by word. -/
theorem frame_k [Cert.Kernel.Facts] [Cert.Pre_finite_inputs.Facts] : Cert.frame_Kernel :=
  fun m ρ _ => Cert.Kernel.Gen.frame m ρ

/-- The same at the exact values. -/
theorem frame_ki [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with `result` of the arguments in their result
    buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.BlockQuant.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.value m ρ c), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
